-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S700x128x1024 : Shape := ⟨3, ![700, 128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S700x128x1024 : S_.BroadcastsInDim S700x128x1024 (![] : Fin 0 → Fin S700x128x1024.rank)
  reducesTo_S700x128x1024_S_d0_1_2 : S700x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S700x128x1024 .f32) (main_arg1 : FVec F S1024x1024 .f32) (main_arg2 : FVec F S1024 .f32) (main_arg3 : FVec F S1024x1 .f32) (main_arg4 : FVec F S1 .f32) : IVec S_ 1 :=
  let main_v0 : FVec F S700x128x1024 .f32 := Host.absf main_arg0
  let main_cst : FVec F S_ .f32 := constant S_ .f32 0x7F800000#32
  let main_v1 : FVec F S700x128x1024 .f32 := broadcastInDim S700x128x1024 ![] bcast_S_S700x128x1024 main_cst
  let main_v2 : IVec S700x128x1024 1 := cmpf .olt main_v0 main_v1
  let main_c : IVec S_ 1 := constantI S_ 1 1#1
  let main_v3 : IVec S_ 1 := (fun x v => Host.reduce IntOp.andi x v reducesTo_S700x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S700x128x1024 : Shape := ⟨3, ![700, 128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S89600x1024 : Shape := ⟨2, ![89600, 1024]⟩
abbrev S89600x1 : Shape := ⟨2, ![89600, 1]⟩
abbrev S1792x1024 : Shape := ⟨2, ![1792, 1024]⟩
abbrev S1792x1 : Shape := ⟨2, ![1792, 1]⟩
abbrev S1x1024 : Shape := ⟨2, ![1, 1024]⟩
abbrev S1x1 : Shape := ⟨2, ![1, 1]⟩
abbrev S700x128x1 : Shape := ⟨3, ![700, 128, 1]⟩
abbrev S128x700x1 : Shape := ⟨3, ![128, 700, 1]⟩

abbrev nBuf : Space → Nat
  | .hbm => 11
  | .vmem => 8
  | .smem => 0
  | _ => 0

abbrev bufTy : (tb : Table) → Fin (tcTables nBuf tb) → BufTy
  | .hbm, ⟨0, _⟩ => ⟨S700x128x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S89600x1024, .f32⟩
  | .hbm, ⟨6, _⟩ => ⟨S1024x1024, .bf16⟩
  | .hbm, ⟨7, _⟩ => ⟨S1024x1, .bf16⟩
  | .hbm, ⟨8, _⟩ => ⟨S89600x1, .f32⟩
  | .hbm, ⟨9, _⟩ => ⟨S700x128x1, .f32⟩
  | .hbm, ⟨10, _⟩ => ⟨S128x700x1, .f32⟩
  | .local _ .vmem, ⟨0, _⟩ => ⟨S1792x1024, .f32⟩
  | .local _ .vmem, ⟨1, _⟩ => ⟨S1792x1024, .f32⟩
  | .local _ .vmem, ⟨2, _⟩ => ⟨S1024x1024, .bf16⟩
  | .local _ .vmem, ⟨3, _⟩ => ⟨S1024, .f32⟩
  | .local _ .vmem, ⟨4, _⟩ => ⟨S1024x1, .bf16⟩
  | .local _ .vmem, ⟨5, _⟩ => ⟨S1, .f32⟩
  | .local _ .vmem, ⟨6, _⟩ => ⟨S1792x1, .f32⟩
  | .local _ .vmem, ⟨7, _⟩ => ⟨S1792x1, .f32⟩
  | _, _ => ⟨S700x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1792x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S700x128x1024_S89600x1024 : S700x128x1024.ShapeCasts S89600x1024
  bitsLt_bf16_f32 : FTy.bits .bf16 < FTy.bits .f32
  inb_S1792x1024_S1792x1024_0_0 : ∀ a, (![0, 0] : Fin 2 → Nat) a + S1792x1024.size a ≤ S1792x1024.size a
  h_S1792x1024 : 0 < S1792x1024.numel
  shapeCasts_S1792x1024_S1792x1024 : S1792x1024.ShapeCasts S1792x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1792x1024 : S1x1024.Broadcasts S1792x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S1792x1 : S1x1.Broadcasts S1792x1
  inb_S1792x1_S1792x1_0_0 : ∀ a, (![0, 0] : Fin 2 → Nat) a + S1792x1.size a ≤ S1792x1.size a
  h_S1792x1 : 0 < S1792x1.numel
  shapeCasts_S89600x1_S700x128x1 : S89600x1.ShapeCasts S700x128x1
  transposes_S700x128x1_S128x700x1_1_0_2 : S700x128x1.Transposes [1, 0, 2] S128x700x1
  dot_S1792x1024_S1024x1024_S1792x1024_1_0_0_1_n_n_wf : DotDims.WF S1792x1024 S1024x1024 S1792x1024 [1] [0] [0] [1] [] []
  dot_S1792x1024_S1024x1_S1792x1_1_0_0_1_n_n_wf : DotDims.WF S1792x1024 S1024x1 S1792x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x1024.size a ≤ S89600x1024.size a
  hwx0_0 : ∀ i : grid0.Coords, EltTy.bits .f32 = 32 ∨ (Rect.block (s := S89600x1024) S1792x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .bf16 = 32 ∨ (Rect.block (s := S1024x1) S1024x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1792x1.size a ≤ S89600x1.size a
  hwx0_5 : ∀ i : grid0.Coords, EltTy.bits .f32 = 32 ∨ (Rect.block (s := S89600x1) S1792x1.size (cc0_transform_5 i) (hinb0_5 i)).WholeWords (EltTy.packing .f32)

variable [Facts₀]

def dot_S1792x1024_S1024x1024_S1792x1024_1_0_0_1_n_n : DotDims S1792x1024 S1024x1024 S1792x1024 where
  lhsContracting := [1]
  rhsContracting := [0]
  lhsNonContracting := [0]
  rhsNonContracting := [1]
  lhsBatch := []
  rhsBatch := []
  wf := dot_S1792x1024_S1024x1024_S1792x1024_1_0_0_1_n_n_wf
def dot_S1792x1024_S1024x1_S1792x1_1_0_0_1_n_n : DotDims S1792x1024 S1024x1 S1792x1 where
  lhsContracting := [1]
  rhsContracting := [0]
  lhsNonContracting := [0]
  rhsNonContracting := [1]
  lhsBatch := []
  rhsBatch := []
  wf := dot_S1792x1024_S1024x1_S1792x1_1_0_0_1_n_n_wf

abbrev win0_0 : Pipeline.Window sig grid0 :=
  Pipeline.Window.ofSpec (Memref.whole main_v0) S1792x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1792x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S700x128x1024 : Shape := ⟨3, ![700, 128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S_ : Shape := ⟨0, ![]⟩
abbrev S700x128x1 : Shape := ⟨3, ![700, 128, 1]⟩
abbrev S1x1x1 : Shape := ⟨3, ![1, 1, 1]⟩
abbrev S128x700x1 : Shape := ⟨3, ![128, 700, 1]⟩

abbrev nBuf : Space → Nat
  | .hbm => 17
  | .vmem => 0
  | .smem => 0
  | _ => 0

abbrev bufTy : (tb : Table) → Fin (tcTables nBuf tb) → BufTy
  | .hbm, ⟨0, _⟩ => ⟨S700x128x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S700x128x1024, .f32⟩
  | .hbm, ⟨6, _⟩ => ⟨S1x1x1024, .f32⟩
  | .hbm, ⟨7, _⟩ => ⟨S700x128x1024, .f32⟩
  | .hbm, ⟨8, _⟩ => ⟨S700x128x1024, .f32⟩
  | .hbm, ⟨9, _⟩ => ⟨S_, .f32⟩
  | .hbm, ⟨10, _⟩ => ⟨S700x128x1024, .f32⟩
  | .hbm, ⟨11, _⟩ => ⟨S700x128x1024, .f32⟩
  | .hbm, ⟨12, _⟩ => ⟨S700x128x1, .f32⟩
  | .hbm, ⟨13, _⟩ => ⟨S1x1x1, .f32⟩
  | .hbm, ⟨14, _⟩ => ⟨S700x128x1, .f32⟩
  | .hbm, ⟨15, _⟩ => ⟨S700x128x1, .f32⟩
  | .hbm, ⟨16, _⟩ => ⟨S128x700x1, .f32⟩
  | _, _ => ⟨S700x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S700x128x1024_0_1_2 : S1x1x1024.BroadcastsInDim S700x128x1024 (![0, 1, 2] : Fin 3 → Fin S700x128x1024.rank)
  bcast_S_S700x128x1024 : S_.BroadcastsInDim S700x128x1024 (![] : Fin 0 → Fin S700x128x1024.rank)
  bcast_S1_S1x1x1_2 : S1.BroadcastsInDim S1x1x1 (![2] : Fin 1 → Fin S1x1x1.rank)
  bcast_S1x1x1_S700x128x1_0_1_2 : S1x1x1.BroadcastsInDim S700x128x1 (![0, 1, 2] : Fin 3 → Fin S700x128x1.rank)
  transposes_S700x128x1_S128x700x1_1_0_2 : S700x128x1.Transposes [1, 0, 2] S128x700x1
  dot_S700x128x1024_S1024x1024_S700x128x1024_2_0_01_1_n_n_wf : DotDims.WF S700x128x1024 S1024x1024 S700x128x1024 [2] [0] [0, 1] [1] [] []
  dot_S700x128x1024_S1024x1_S700x128x1_2_0_01_1_n_n_wf : DotDims.WF S700x128x1024 S1024x1 S700x128x1 [2] [0] [0, 1] [1] [] []

variable [Facts₀]

def dot_S700x128x1024_S1024x1024_S700x128x1024_2_0_01_1_n_n : DotDims S700x128x1024 S1024x1024 S700x128x1024 where
  lhsContracting := [2]
  rhsContracting := [0]
  lhsNonContracting := [0, 1]
  rhsNonContracting := [1]
  lhsBatch := []
  rhsBatch := []
  wf := dot_S700x128x1024_S1024x1024_S700x128x1024_2_0_01_1_n_n_wf
def dot_S700x128x1024_S1024x1_S700x128x1_2_0_01_1_n_n : DotDims S700x128x1024 S1024x1 S700x128x1 where
  lhsContracting := [2]
  rhsContracting := [0]
  lhsNonContracting := [0, 1]
  rhsNonContracting := [1]
  lhsBatch := []
  rhsBatch := []
  wf := dot_S700x128x1024_S1024x1_S700x128x1_2_0_01_1_n_n_wf

class Facts : Prop extends Facts₀ where

variable [Facts]
-- ==== Proof.MlpSpec.lean ====
/-
  The function both programs compute at the ideal values: a two-layer perceptron applied to every
  (residue, batch) row of the input, with the residue and batch axes exchanged in the result.

  For x : [700, 128, 1024], W1 : [1024, 1024], b1 : [1024], W2 : [1024, 1], b2 : [1] the hidden activation is
      hid r b h = max (Σ_d x[r, b, d] · W1[d, h] + b1[h]) 0
  and the result, of shape [128, 700, 1], is
      out[b, r, 0] = Σ_h hid r b h · W2[h, 0] + b2[0].
  Every float is an extended real here, every operation the exact one; the sums are finite sums in the
  commutative monoid of extended reals, so no order of summation is part of the statement.
-/
import Idealize.ShloMosaic.PureOps.Ideal
import Idealize.ShloMosaic.Lib.ValueIdx

noncomputable section

namespace Cert.MlpSpec

open Idealize.ShloMosaic Idealize.ShloMosaic.ValueIdx

/-- The hidden layer before the rectifier, at one row given as a function of the feature index: the row's inner
    product with column `h` of the first weight matrix, plus the first bias at `h`. -/
def pre (row : Fin 1024 → EReal) (w1 : (⟨2, ![1024, 1024]⟩ : Shape).Idx → EReal) (b1 : (⟨1, ![1024]⟩ : Shape).Idx → EReal)
    (h : Fin 1024) : EReal :=
  (∑ d : Fin 1024, row d * w1 (ix2 d h)) + b1 (ix1 h)

/-- The perceptron's scalar output at one row: the rectified hidden layer's inner product with the single
    column of the second weight matrix, plus the second bias. -/
def rowOut (row : Fin 1024 → EReal) (w1 : (⟨2, ![1024, 1024]⟩ : Shape).Idx → EReal) (b1 : (⟨1, ![1024]⟩ : Shape).Idx → EReal)
    (w2 : (⟨2, ![1024, 1]⟩ : Shape).Idx → EReal) (b2 : (⟨1, ![1]⟩ : Shape).Idx → EReal) : EReal :=
  (∑ h : Fin 1024, max (pre row w1 b1 h) 0 * w2 (ix2 h (0 : Fin 1))) + b2 (ix1 (0 : Fin 1))

/-- The whole result: entry (b, r, 0) is the perceptron's output at row (r, b) of the input. -/
def out (x : (⟨3, ![700, 128, 1024]⟩ : Shape).Idx → EReal) (w1 : (⟨2, ![1024, 1024]⟩ : Shape).Idx → EReal)
    (b1 : (⟨1, ![1024]⟩ : Shape).Idx → EReal) (w2 : (⟨2, ![1024, 1]⟩ : Shape).Idx → EReal) (b2 : (⟨1, ![1]⟩ : Shape).Idx → EReal) :
    (⟨3, ![128, 700, 1]⟩ : Shape).Idx → EReal :=
  fun i => rowOut (fun d => x (ix3 (i 1) (i 0) d)) w1 b1 w2 b2

/-- The same before the final exchange of axes and with the two leading axes flattened row-major: entry
    (r · 128 + b, 0) of a [89600, 1] array. This is the array the kernel's grid writes, 1792 rows a step. -/
def flat (x : (⟨3, ![700, 128, 1024]⟩ : Shape).Idx → EReal) (w1 : (⟨2, ![1024, 1024]⟩ : Shape).Idx → EReal)
    (b1 : (⟨1, ![1024]⟩ : Shape).Idx → EReal) (w2 : (⟨2, ![1024, 1]⟩ : Shape).Idx → EReal) (b2 : (⟨1, ![1]⟩ : Shape).Idx → EReal) :
    (⟨2, ![89600, 1]⟩ : Shape).Idx → EReal :=
  fun i => rowOut (fun d => x (ix3 (⟨(i 0).val / 128, by have h : (i 0).val < 89600 := (i 0).isLt; omega⟩ : Fin 700) (⟨(i 0).val % 128, Nat.mod_lt _ (by decide)⟩ : Fin 128) d)) w1 b1 w2 b2

/-- Row r · 128 + b of the flattened result is entry (b, r, 0) of the result: dividing the row by 128 gives the
    residue back, the remainder the batch index. -/
theorem flat_apply (x : (⟨3, ![700, 128, 1024]⟩ : Shape).Idx → EReal) (w1 : (⟨2, ![1024, 1024]⟩ : Shape).Idx → EReal)
    (b1 : (⟨1, ![1024]⟩ : Shape).Idx → EReal) (w2 : (⟨2, ![1024, 1]⟩ : Shape).Idx → EReal) (b2 : (⟨1, ![1]⟩ : Shape).Idx → EReal)
    (r : Fin 700) (b : Fin 128) (z z' : Fin 1) (hrb : r.val * 128 + b.val < 89600) :
    flat x w1 b1 w2 b2 (ix2 (⟨r.val * 128 + b.val, hrb⟩ : Fin 89600) z) = out x w1 b1 w2 b2 (ix3 b r z') := by
  unfold flat out
  refine congrArg (fun f => rowOut f w1 b1 w2 b2) (funext fun d => congrArg x (funext fun a => Fin.ext ?_))
  have hb : b.val < 128 := b.isLt
  match a with
  | ⟨0, _⟩ => show (r.val * 128 + b.val) / 128 = r.val; omega
  | ⟨1, _⟩ => show (r.val * 128 + b.val) % 128 = b.val; omega
  | ⟨2, _⟩ => rfl

end Cert.MlpSpec

end
-- ==== Proof.RefIsSpec.lean ====
/-
  The reference computes the perceptron of MlpSpec, entry by entry.

  Its result is read one operation at a time: the exchange of the two leading axes, the second bias added, the
  second contraction over the hidden index, the rectifier against the zero constant, the first bias added, the
  first contraction over the feature index. At entry (b, r, 0) this is
      Σ_h max (Σ_d x[r, b, d] · W1[d, h] + b1[h]) 0 · W2[h, 0] + b2[0],
  which is `MlpSpec.out` by definition once each operation's index function is named by its coordinates.
-/
import proofs.«181621_j30073361006607_1_alg».proof.Proof.Gen.ReferenceIdeal.Run
import proofs.«181621_j30073361006607_1_alg».proof.Proof.Gen.ReferenceIdeal.Read
import proofs.«181621_j30073361006607_1_alg».proof.Proof.MlpSpec

noncomputable section

namespace Cert.ReferenceIdeal.RefSpec

open Cert.ReferenceIdeal Cert.ReferenceIdeal.Read Idealize.ShloMosaic Idealize.ShloMosaic.ValueIdx

/-- The rectified hidden layer at entry (r, b, h): the maximum with zero of row (r, b)'s inner product with
    column h of the first weight matrix plus the first bias at h. -/
theorem hidden_eq (x0 : S700x128x1024.Idx → EReal) (x1 : S1024x1024.Idx → EReal) (x2 : S1024.Idx → EReal)
    (r : Fin 700) (b : Fin 128) (h : Fin 1024) :
    val_main_v4 (F := Ideal) x0 x1 x2 (ix3 r b h) = max (Cert.MlpSpec.pre (fun d => x0 (ix3 r b d)) x1 x2 h) 0 := by
  rw [val_main_v4_apply, val_main_v3_apply, val_main_v0_apply, val_main_v2_apply, val_main_v1_apply,
    val_main_call0_v0_apply, val_main_call0_cst_apply]
  show max ((∑ k : Fin 1024, x0 (lidx_main_v0 (ix3 r b h) k) * x1 (ridx_main_v0 (ix3 r b h) k))
      + x2 (idx_main_v1 (idx_main_v2 (ix3 r b h)))) (Ideal.ofBits .f32 0x00000000#32) = _
  rw [Ideal.ofBits_zero_f32]
  unfold Cert.MlpSpec.pre
  have e1 : ∀ k : Fin 1024, lidx_main_v0 (ix3 r b h) k = ix3 r b k := fun k => funext fun a => Fin.ext (by
    match a with
    | ⟨0, _⟩ => rfl
    | ⟨1, _⟩ => rfl
    | ⟨2, _⟩ => rfl)
  have e2 : ∀ k : Fin 1024, ridx_main_v0 (ix3 r b h) k = ix2 k h := fun k => funext fun a => Fin.ext (by
    match a with
    | ⟨0, _⟩ => rfl
    | ⟨1, _⟩ => rfl)
  have e3 : idx_main_v1 (idx_main_v2 (ix3 r b h)) = ix1 h := funext fun a => Fin.ext (by
    match a with
    | ⟨0, _⟩ => rfl)
  simp only [e1, e2, e3]

/-- The reference's result is the perceptron of the arguments, with the residue and batch axes exchanged. -/
theorem ref_is_spec (x0 : S700x128x1024.Idx → EReal) (x1 : S1024x1024.Idx → EReal) (x2 : S1024.Idx → EReal)
    (x3 : S1024x1.Idx → EReal) (x4 : S1.Idx → EReal) :
    val_main_v9 (F := Ideal) x0 x1 x2 x3 x4 = Cert.MlpSpec.out x0 x1 x2 x3 x4 := by
  funext i
  obtain ⟨b, r, z, rfl⟩ : ∃ (b : Fin 128) (r : Fin 700) (z : Fin 1), i = ix3 b r z := ⟨i 0, i 1, i 2, eq_ix3 i⟩
  rw [val_main_v9_apply, val_main_v8_apply, val_main_v5_apply, val_main_v7_apply, val_main_v6_apply]
  unfold Cert.MlpSpec.out Cert.MlpSpec.rowOut
  show (∑ k : Fin 1024, val_main_v4 (F := Ideal) x0 x1 x2 (lidx_main_v5 (idx_main_v9 (ix3 b r z)) k)
        * x3 (ridx_main_v5 (idx_main_v9 (ix3 b r z)) k))
      + x4 (idx_main_v6 (idx_main_v7 (idx_main_v9 (ix3 b r z)))) = _
  have e1 : ∀ k : Fin 1024, lidx_main_v5 (idx_main_v9 (ix3 b r z)) k = ix3 r b k := fun k => funext fun a => Fin.ext (by
    match a with
    | ⟨0, _⟩ => rfl
    | ⟨1, _⟩ => rfl
    | ⟨2, _⟩ => rfl)
  have e2 : ∀ k : Fin 1024, ridx_main_v5 (idx_main_v9 (ix3 b r z)) k = ix2 k (0 : Fin 1) := fun k => funext fun a => Fin.ext (by
    match a with
    | ⟨0, _⟩ => rfl
    | ⟨1, _⟩ => show z.val = 0; omega)
  have e3 : idx_main_v6 (idx_main_v7 (idx_main_v9 (ix3 b r z))) = ix1 (0 : Fin 1) := funext fun a => Fin.ext (by
    match a with
    | ⟨0, _⟩ => rfl)
  simp only [e1, e2, e3, hidden_eq]

end Cert.ReferenceIdeal.RefSpec

end
-- ==== Proof.KernelBlock.lean ====
/-
  One grid step of the kernel, entry by entry.

  The body loads a [1792, 1024] block of rows, both weight matrices and both biases, and stores a [1792, 1]
  column. At the ideal values the two changes of float format are the identity and a matrix product into a zero
  accumulator is the plain sum over the contracted index, so row p of the stored column is
      Σ_h max (Σ_d X[p, d] · W1[d, h] + b1[h]) 0 · W2[h, 0] + b2[0]:
  the perceptron of MlpSpec at row p of the block.
-/
import proofs.«181621_j30073361006607_1_alg».proof.Proof.Gen.KernelIdeal.Skeleton
import proofs.«181621_j30073361006607_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The operand indices of the two matrix products, coordinate by coordinate -/

theorem lhs1_0 (i : S1792x1024.Idx) (q : dot_S1792x1024_S1024x1024_S1792x1024_1_0_0_1_n_n.contr.Idx) :
    (dot_S1792x1024_S1024x1024_S1792x1024_1_0_0_1_n_n.lhsIdx i q 0).val = (i 0).val := by
  unfold DotDims.lhsIdx
  rw [dif_neg (show ¬(0 : Fin S1792x1024.rank) ∈ dot_S1792x1024_S1024x1024_S1792x1024_1_0_0_1_n_n.lhsBatch by decide), dif_pos (show (0 : Fin S1792x1024.rank) ∈ dot_S1792x1024_S1024x1024_S1792x1024_1_0_0_1_n_n.lhsNonContracting by decide)]
  rfl
theorem lhs1_1 (i : S1792x1024.Idx) (q : dot_S1792x1024_S1024x1024_S1792x1024_1_0_0_1_n_n.contr.Idx) :
    (dot_S1792x1024_S1024x1024_S1792x1024_1_0_0_1_n_n.lhsIdx i q 1).val = (q ⟨0, by decide⟩).val :=
  dot_S1792x1024_S1024x1024_S1792x1024_1_0_0_1_n_n.lhsIdx_val_of_single rfl i q
theorem rhs1_0 (i : S1792x1024.Idx) (q : dot_S1792x1024_S1024x1024_S1792x1024_1_0_0_1_n_n.contr.Idx) :
    (dot_S1792x1024_S1024x1024_S1792x1024_1_0_0_1_n_n.rhsIdx i q 0).val = (q ⟨0, by decide⟩).val :=
  dot_S1792x1024_S1024x1024_S1792x1024_1_0_0_1_n_n.rhsIdx_val_of_single rfl i q
theorem rhs1_1 (i : S1792x1024.Idx) (q : dot_S1792x1024_S1024x1024_S1792x1024_1_0_0_1_n_n.contr.Idx) :
    (dot_S1792x1024_S1024x1024_S1792x1024_1_0_0_1_n_n.rhsIdx i q 1).val = (i 1).val := by
  unfold DotDims.rhsIdx
  rw [dif_neg (show ¬(1 : Fin S1024x1024.rank) ∈ dot_S1792x1024_S1024x1024_S1792x1024_1_0_0_1_n_n.rhsBatch by decide), dif_pos (show (1 : Fin S1024x1024.rank) ∈ dot_S1792x1024_S1024x1024_S1792x1024_1_0_0_1_n_n.rhsNonContracting by decide)]
  rfl

theorem lhs2_0 (i : S1792x1.Idx) (q : dot_S1792x1024_S1024x1_S1792x1_1_0_0_1_n_n.contr.Idx) :
    (dot_S1792x1024_S1024x1_S1792x1_1_0_0_1_n_n.lhsIdx i q 0).val = (i 0).val := by
  unfold DotDims.lhsIdx
  rw [dif_neg (show ¬(0 : Fin S1792x1024.rank) ∈ dot_S1792x1024_S1024x1_S1792x1_1_0_0_1_n_n.lhsBatch by decide), dif_pos (show (0 : Fin S1792x1024.rank) ∈ dot_S1792x1024_S1024x1_S1792x1_1_0_0_1_n_n.lhsNonContracting by decide)]
  rfl
theorem lhs2_1 (i : S1792x1.Idx) (q : dot_S1792x1024_S1024x1_S1792x1_1_0_0_1_n_n.contr.Idx) :
    (dot_S1792x1024_S1024x1_S1792x1_1_0_0_1_n_n.lhsIdx i q 1).val = (q ⟨0, by decide⟩).val :=
  dot_S1792x1024_S1024x1_S1792x1_1_0_0_1_n_n.lhsIdx_val_of_single rfl i q
theorem rhs2_0 (i : S1792x1.Idx) (q : dot_S1792x1024_S1024x1_S1792x1_1_0_0_1_n_n.contr.Idx) :
    (dot_S1792x1024_S1024x1_S1792x1_1_0_0_1_n_n.rhsIdx i q 0).val = (q ⟨0, by decide⟩).val :=
  dot_S1792x1024_S1024x1_S1792x1_1_0_0_1_n_n.rhsIdx_val_of_single rfl i q
theorem rhs2_1 (i : S1792x1.Idx) (q : dot_S1792x1024_S1024x1_S1792x1_1_0_0_1_n_n.contr.Idx) :
    (dot_S1792x1024_S1024x1_S1792x1_1_0_0_1_n_n.rhsIdx i q 1).val = (i 1).val := by
  unfold DotDims.rhsIdx
  rw [dif_neg (show ¬(1 : Fin S1024x1.rank) ∈ dot_S1792x1024_S1024x1_S1792x1_1_0_0_1_n_n.rhsBatch by decide), dif_pos (show (1 : Fin S1024x1.rank) ∈ dot_S1792x1024_S1024x1_S1792x1_1_0_0_1_n_n.rhsNonContracting by decide)]
  rfl

/-! ## The two matrix products as sums over the contracted index -/

/-- The first product, rows times the first weight matrix, at entry (p, h): the sum over the feature index. -/
theorem matmul1_apply (l : FVec Ideal S1792x1024 .bf16) (r : FVec Ideal S1024x1024 .bf16) (p : Fin 1792) (h : Fin 1024) :
    matmul (F := Ideal) dot_S1792x1024_S1024x1024_S1792x1024_1_0_0_1_n_n none l r (constant (F := Ideal) S1792x1024 .f32 0x00000000#32) (ix2 p h)
      = ∑ k : Fin 1024, l (ix2 p k) * r (ix2 k h) := by
  simp only [matmul]
  rw [Ideal.matmul_constant_zero_apply, ← Equiv.sum_comp (contrEquiv1 dot_S1792x1024_S1024x1024_S1792x1024_1_0_0_1_n_n 1024 rfl rfl).symm]
  refine Finset.sum_congr rfl fun k _ => ?_
  have hk := contrEquiv1_symm_val dot_S1792x1024_S1024x1024_S1792x1024_1_0_0_1_n_n 1024 rfl rfl k
  have el : dot_S1792x1024_S1024x1024_S1792x1024_1_0_0_1_n_n.lhsIdx (ix2 p h) ((contrEquiv1 dot_S1792x1024_S1024x1024_S1792x1024_1_0_0_1_n_n 1024 rfl rfl).symm k) = ix2 p k := funext fun a => Fin.ext (by
    match a with
    | ⟨0, _⟩ => exact lhs1_0 _ _
    | ⟨1, _⟩ => exact (lhs1_1 _ _).trans hk)
  have er : dot_S1792x1024_S1024x1024_S1792x1024_1_0_0_1_n_n.rhsIdx (ix2 p h) ((contrEquiv1 dot_S1792x1024_S1024x1024_S1792x1024_1_0_0_1_n_n 1024 rfl rfl).symm k) = ix2 k h := funext fun a => Fin.ext (by
    match a with
    | ⟨0, _⟩ => exact (rhs1_0 _ _).trans hk
    | ⟨1, _⟩ => exact rhs1_1 _ _)
  rw [el, er]

/-- The second product, hidden rows times the one column of the second weight matrix, at entry (p, h). -/
theorem matmul2_apply (l : FVec Ideal S1792x1024 .bf16) (r : FVec Ideal S1024x1 .bf16) (p : Fin 1792) (h : Fin 1) :
    matmul (F := Ideal) dot_S1792x1024_S1024x1_S1792x1_1_0_0_1_n_n none l r (constant (F := Ideal) S1792x1 .f32 0x00000000#32) (ix2 p h)
      = ∑ k : Fin 1024, l (ix2 p k) * r (ix2 k h) := by
  simp only [matmul]
  rw [Ideal.matmul_constant_zero_apply, ← Equiv.sum_comp (contrEquiv1 dot_S1792x1024_S1024x1_S1792x1_1_0_0_1_n_n 1024 rfl rfl).symm]
  refine Finset.sum_congr rfl fun k _ => ?_
  have hk := contrEquiv1_symm_val dot_S1792x1024_S1024x1_S1792x1_1_0_0_1_n_n 1024 rfl rfl k
  have el : dot_S1792x1024_S1024x1_S1792x1_1_0_0_1_n_n.lhsIdx (ix2 p h) ((contrEquiv1 dot_S1792x1024_S1024x1_S1792x1_1_0_0_1_n_n 1024 rfl rfl).symm k) = ix2 p k := funext fun a => Fin.ext (by
    match a with
    | ⟨0, _⟩ => exact lhs2_0 _ _
    | ⟨1, _⟩ => exact (lhs2_1 _ _).trans hk)
  have er : dot_S1792x1024_S1024x1_S1792x1_1_0_0_1_n_n.rhsIdx (ix2 p h) ((contrEquiv1 dot_S1792x1024_S1024x1_S1792x1_1_0_0_1_n_n 1024 rfl rfl).symm k) = ix2 k h := funext fun a => Fin.ext (by
    match a with
    | ⟨0, _⟩ => exact (rhs2_0 _ _).trans hk
    | ⟨1, _⟩ => exact rhs2_1 _ _)
  rw [el, er]

/-! ## The stored column -/

/-- Row p of the column one grid step stores is the perceptron's output at row p of the loaded block. -/
theorem pay_apply (x0 : Vec Ideal S1792x1024 .f32) (x1 : Vec Ideal S1024x1024 .bf16) (x2 : Vec Ideal S1024 .f32)
    (x3 : Vec Ideal S1024x1 .bf16) (x4 : Vec Ideal S1 .f32) (p : Fin 1792) (q : Fin 1) :
    k0_pay1 (F := Ideal) x0 x1 x2 x3 x4 (ix2 p q) = Cert.MlpSpec.rowOut (fun d => x0 (ix2 p d)) x1 x2 x3 x4 := by
  have hq : q = 0 := Fin.ext (by omega)
  subst hq
  unfold k0_pay1 Cert.MlpSpec.rowOut Cert.MlpSpec.pre
  simp only [truncf_apply, maximumf_apply, addf_apply, matmul1_apply, matmul2_apply, broadcastTo_1b_ab_apply,
    shapeCast_a_1a_apply, shapeCast_self, broadcast_apply, Ideal.ofBits_def, Ideal.ofBits_zero_f32]

end Cert.KernelIdeal.Block

end
-- ==== Proof.KernelArray.lean ====
/-
  The array the kernel's grid writes, as one function of the arrays the region finds.

  The grid has 50 steps; step t reads rows 1792·t … 1792·t + 1791 of the flattened input (all 1024 columns) and the
  whole of both weight matrices and both biases, and writes rows 1792·t … 1792·t + 1791 of the [89600, 1] result.
  So what step t writes back is block t of ONE function of the arrays: row i of the result is the perceptron at
  row i of the flattened input. The 50 blocks tile the 89600 rows (row i lies in block i / 1792), hence after the
  run the whole result array is that function.
-/
import proofs.«181621_j30073361006607_1_alg».proof.Proof.Gen.KernelIdeal.Frame
import proofs.«181621_j30073361006607_1_alg».proof.Proof.KernelBlock
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The result array as the region leaves it, from the arrays as the region finds them: row i is the perceptron at
    row i of the flattened input, with the weights and biases the region is handed. -/
def rows (c : Dev nD) : S89600x1.Idx → EReal := fun i =>
  Cert.MlpSpec.rowOut (fun d => (V m c main_v0 : S89600x1024.Idx → EReal) (ix2 (i 0) d))
    (V m c main_v1 : S1024x1024.Idx → EReal) (V m c main_arg2 : S1024.Idx → EReal)
    (V m c main_v2 : S1024x1.Idx → EReal) (V m c main_arg4 : S1.Idx → EReal)

/-- The printed index maps, decided over the 50 steps: the row block of the input and of the result both move with
    the step, every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The first weight matrix is loaded whole at every step. -/
theorem iblk1_eq (c : Dev nD) (t : Fin cfg0.N) : (iblk m c 1 t : S1024x1024.Idx → EReal) = V m c main_v1 := by
  funext y
  show V m c main_v1 (((cfg0.win 1).blk t).view.emb y) = V m c main_v1 y
  obtain ⟨_, _, e2, e3, _, _, _, _, _, _⟩ := idx_facts t
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The first bias is loaded whole at every step. -/
theorem iblk2_eq (c : Dev nD) (t : Fin cfg0.N) : (iblk m c 2 t : S1024.Idx → EReal) = V m c main_arg2 := by
  funext y
  show V m c main_arg2 (((cfg0.win 2).blk t).view.emb y) = V m c main_arg2 y
  obtain ⟨_, _, _, _, e4, _, _, _, _, _⟩ := idx_facts t
  refine congrArg _ (funext fun a => Fin.ext ?_)
  match a with
  | ⟨0, _⟩ => show win0_2.index t (0 : Fin 1) * 1024 + 1 * (y 0).val = (y 0).val; omega

/-- The second weight matrix is loaded whole at every step. -/
theorem iblk3_eq (c : Dev nD) (t : Fin cfg0.N) : (iblk m c 3 t : S1024x1.Idx → EReal) = V m c main_v2 := by
  funext y
  show V m c main_v2 (((cfg0.win 3).blk t).view.emb y) = V m c main_v2 y
  obtain ⟨_, _, _, _, _, e5, e6, _, _, _⟩ := idx_facts t
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1 + 1 * (y 1).val = (y 1).val; omega

/-- The second bias is loaded whole at every step. -/
theorem iblk4_eq (c : Dev nD) (t : Fin cfg0.N) : (iblk m c 4 t : S1.Idx → EReal) = V m c main_arg4 := by
  funext y
  show V m c main_arg4 (((cfg0.win 4).blk t).view.emb y) = V m c main_arg4 y
  obtain ⟨_, _, _, _, _, _, _, e7, _, _⟩ := idx_facts t
  refine congrArg _ (funext fun a => Fin.ext ?_)
  match a with
  | ⟨0, _⟩ => show win0_4.index t (0 : Fin 1) * 1 + 1 * (y 0).val = (y 0).val; omega

/-- Row p, column d of the input block at step t is row (result block's row of p), column d of the flattened input:
    the input's and the result's row blocks coincide. -/
theorem iblk0_apply (c : Dev nD) (t : Fin cfg0.N) (j : S1792x1.Idx) (d : Fin 1024) :
    (iblk m c 0 t : S1792x1024.Idx → EReal) (ix2 (j 0) d)
      = (V m c main_v0 : S89600x1024.Idx → EReal) (ix2 ((((cfg0.win 5).blk t).view.emb j : S89600x1.Idx) 0) d) := by
  show V m c main_v0 (((cfg0.win 0).blk t).view.emb (ix2 (j 0) d)) = _
  obtain ⟨e0, e1, _, _, _, _, _, _, e8, _⟩ := idx_facts t
  refine congrArg _ (funext fun a => Fin.ext ?_)
  match a with
  | ⟨0, _⟩ => show win0_0.index t (0 : Fin 2) * 1792 + 1 * (j 0).val = win0_5.index t (0 : Fin 2) * 1792 + 1 * (j 0).val; omega
  | ⟨1, _⟩ => show win0_0.index t (1 : Fin 2) * 1024 + 1 * d.val = d.val; omega

/-- WHAT STEP t WRITES BACK is block t of `rows`. -/
theorem flushed5_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5]
  unfold out0_5
  rw [View.canon_unit_zero hz2]
  simp only [View.ld_unit_zero (S := S1792x1024) hz2, View.ld_unit_zero (S := S1024x1024) hz2,
    View.ld_unit_zero (S := S1024) hz1, View.ld_unit_zero (S := S1024x1) hz2, View.ld_unit_zero (S := S1) hz1]
  funext j
  show k0_pay1 (F := Ideal) (iblk m c 0 t) (iblk m c 1 t) (iblk m c 2 t) (iblk m c 3 t) (iblk m c 4 t) j
    = rows m c (((cfg0.win 5).blk t).view.emb j)
  refine (congrArg _ (eq_ix2 j)).trans ?_
  refine (Cert.KernelIdeal.Block.pay_apply (iblk m c 0 t) (iblk m c 1 t) (iblk m c 2 t) (iblk m c 3 t) (iblk m c 4 t) (j 0) (j 1)).trans ?_
  unfold rows
  rw [iblk1_eq, iblk2_eq, iblk3_eq, iblk4_eq]
  exact congrArg (fun f => Cert.MlpSpec.rowOut f _ _ _ _) (funext fun d => iblk0_apply m c t j d)

/-- An index of the result array is in step t's block iff each coordinate is in the block's range on its axis. -/
theorem mem_blk5 (t : Fin cfg0.N) (i : S89600x1.Idx) :
    i ∈ ((cfg0.win 5).blk t).view.set ↔ ∀ a : Fin 2, win0_5.index t a * S1792x1.size a ≤ (i a).val ∧ (i a).val < win0_5.index t a * S1792x1.size a + S1792x1.size a := by
  show i ∈ ((View.whole main_v3).slice (win0_5.rect t)).set ↔ _
  rw [View.set_slice_whole, Rect.mem_set_unit]
  exact Iff.rfl

/-- Every row of the result lies in some step's block: row i in the block of step i / 1792. -/
theorem cover5 (i : S89600x1.Idx) :
    ∃ t : Fin cfg0.N, (cfg0.win 5).flush t = true ∧ i ∈ ((cfg0.win 5).blk t).view.set := by
  have hi0 : (i 0).val < 89600 := (i 0).isLt
  have hi1 : (i 1).val < 1 := (i 1).isLt
  have hN : (i 0).val / 1792 < cfg0.N := by show _ < grid0.N; rw [N_0]; omega
  obtain ⟨_, _, _, _, _, _, _, _, e8, e9⟩ := idx_facts ⟨(i 0).val / 1792, hN⟩
  have e8' : win0_5.index ⟨(i 0).val / 1792, hN⟩ (0 : Fin 2) = (i 0).val / 1792 := e8
  refine ⟨⟨(i 0).val / 1792, hN⟩, flush0_5 _, ?_⟩
  rw [mem_blk5]
  intro a
  match a with
  | ⟨0, _⟩ => show win0_5.index ⟨(i 0).val / 1792, hN⟩ (0 : Fin 2) * 1792 ≤ (i 0).val ∧ (i 0).val < win0_5.index ⟨(i 0).val / 1792, hN⟩ (0 : Fin 2) * 1792 + 1792; omega
  | ⟨1, _⟩ => show win0_5.index ⟨(i 0).val / 1792, hN⟩ (1 : Fin 2) * 1 ≤ (i 1).val ∧ (i 1).val < win0_5.index ⟨(i 0).val / 1792, hN⟩ (1 : Fin 2) * 1 + 1; omega

/-- THE RESULT ARRAY after the run is `rows`. -/
theorem final5 (c : Dev nD) : (dats m 0 c).arrAt 5 cfg0.N = rows m c :=
  (dats m 0 c).arrAt_eq_of_cover 5 (rows m c) (fun t _ => flushed5_eq m c t) cover5

end Cert.KernelIdeal.Arr

end
-- ==== Proof.KernelWhole.lean ====
/-
  The whole idealized kernel program, from its arguments to its result.

  Before the grid the program flattens the input's two leading axes, [700, 128, 1024] to [89600, 1024] (row r · 128 + b
  is row (r, b)), and changes the float format of the two weight matrices, which is the identity at the ideal
  values. After the grid it unflattens the [89600, 1] result to [700, 128, 1] and exchanges the two leading axes.
  With the grid's result known as a function of the arrays the region finds (KernelArray), the program's result is
  the perceptron of MlpSpec at every entry: out[b, r, 0] is the perceptron at row (r, b) of the input.
-/
import proofs.«181621_j30073361006607_1_alg».proof.Proof.KernelArray
import Idealize.ShloMosaic.Lib.StableHlo.Run

set_option maxRecDepth 16384

noncomputable section

namespace Cert.KernelIdeal.Whole

open Cert.KernelIdeal Cert.KernelIdeal.Gen Cert.KernelIdeal.Arr Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arrays the region finds -/

/-- The flattened input is the input re-read row-major at shape [89600, 1024]. -/
theorem V_main_v0 (c : Dev nD) : (V m c main_v0 : S89600x1024.Idx → EReal)
    = shapeCast S89600x1024 (m ((c : Thread nD τ).loc main_arg0) : S700x128x1024.Idx → EReal) shapeCasts_S700x128x1024_S89600x1024 := by
  show StableHlo.after hostOps0 (fun b => m (c, b)) (Proc.devRef .tc main_v0) = _
  after_results
  rfl

/-- The first weight matrix in the narrower format is the first weight matrix. -/
theorem V_main_v1 (c : Dev nD) : (V m c main_v1 : S1024x1024.Idx → EReal) = m ((c : Thread nD τ).loc main_arg1) := by
  show StableHlo.after hostOps0 (fun b => m (c, b)) (Proc.devRef .tc main_v1) = _
  after_results
  rfl

/-- The second weight matrix in the narrower format is the second weight matrix. -/
theorem V_main_v2 (c : Dev nD) : (V m c main_v2 : S1024x1.Idx → EReal) = m ((c : Thread nD τ).loc main_arg3) := by
  show StableHlo.after hostOps0 (fun b => m (c, b)) (Proc.devRef .tc main_v2) = _
  after_results
  rfl

/-- Row i, column d of the flattened input is entry (i / 128, i % 128, d) of the input. -/
theorem flatten_apply (x : S700x128x1024.Idx → EReal) (i : Fin 89600) (d : Fin 1024) :
    shapeCast S89600x1024 x shapeCasts_S700x128x1024_S89600x1024 (ix2 i d)
      = x (ix3 (⟨i.val / 128, by have := i.isLt; omega⟩ : Fin 700) (⟨i.val % 128, Nat.mod_lt _ (by decide)⟩ : Fin 128) d) :=
  shapeCast_apply x _ _ _ (by
    rw [Shape.rowMajor_val_three, Shape.rowMajor_val_two]
    show (i.val / 128 * 128 + i.val % 128) * 1024 + d.val = i.val * 1024 + d.val
    omega)

/-- The grid's result, from the program's arguments: the flattened perceptron of MlpSpec. -/
theorem rows_eq_flat (c : Dev nD) :
    rows m c = Cert.MlpSpec.flat (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  unfold rows Cert.MlpSpec.flat
  rw [V_main_v0, V_main_v1, V_main_v2, V_main_arg2, V_main_arg4]
  exact congrArg (fun f => Cert.MlpSpec.rowOut f _ _ _ _) (funext fun d => flatten_apply _ (i 0) d)

/-! ## The lines after the grid -/

/-- The grid's result array, as the lines after the grid find it. -/
theorem v3_eq (c : Dev nD) :
    Pipeline.withArrays spec0 c (V0 m c) (fun w => (dats m 0 c).arrAt w cfg0.N) (Proc.devRef .tc main_v3) = rows m c :=
  (Pipeline.withArrays_arr spec0 launch0.win.arr_inj c _ _ 5).trans (final5 m c)

/-- The program's result buffer after the run. -/
theorem tail_eq (c : Dev nD) :
    (Pipeline.afterTail₀ cfgs (dats m) 0 (V0 m) [hostOps1] c main_v5 : S128x700x1.Idx → EReal)
      = transpose S128x700x1 [1, 0, 2] (shapeCast S700x128x1 (rows m c) shapeCasts_S89600x1_S700x128x1) transposes_S700x128x1_S128x700x1_1_0_2 := by
  unfold Pipeline.afterTail₀
  show StableHlo.after hostOps1 _ (Proc.devRef .tc main_v5) = _
  after_results
  rw [v3_eq]
  rfl

/-- Entry (r, b, 0) of the unflattened grid result is row r · 128 + b of the grid result. -/
theorem unflatten_apply (y : S89600x1.Idx → EReal) (r : Fin 700) (b : Fin 128) (z : Fin 1) (hrb : r.val * 128 + b.val < 89600) :
    shapeCast S700x128x1 y shapeCasts_S89600x1_S700x128x1 (ix3 r b z) = y (ix2 (⟨r.val * 128 + b.val, hrb⟩ : Fin 89600) z) :=
  shapeCast_apply y _ _ _ (by
    rw [Shape.rowMajor_val_three, Shape.rowMajor_val_two]
    rfl)

/-- Entry (b, r, z) of the exchanged array is entry (r, b, z) of the array before the exchange. -/
theorem exchange_apply (y : S700x128x1.Idx → EReal) (b : Fin 128) (r : Fin 700) (z : Fin 1) :
    transpose S128x700x1 [1, 0, 2] y transposes_S700x128x1_S128x700x1_1_0_2 (ix3 b r z) = y (ix3 r b z) :=
  transpose_apply [1, 0, 2] y transposes_S700x128x1_S128x700x1_1_0_2 (ix3 b r z) (ix3 r b z) (fun a => match a with
    | ⟨0, _⟩ => rfl
    | ⟨1, _⟩ => rfl
    | ⟨2, _⟩ => rfl)

/-- THE PROGRAM'S RESULT is the perceptron of MlpSpec of its arguments. -/
theorem result_eq (c : Dev nD) :
    (Pipeline.afterTail₀ cfgs (dats m) 0 (V0 m) [hostOps1] c main_v5 : S128x700x1.Idx → EReal)
      = Cert.MlpSpec.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, rows_eq_flat]
  funext i
  obtain ⟨b, r, z, rfl⟩ : ∃ (b : Fin 128) (r : Fin 700) (z : Fin 1), i = ix3 b r z := ⟨i 0, i 1, i 2, eq_ix3 i⟩
  have hrb : r.val * 128 + b.val < 89600 := by have := r.isLt; have := b.isLt; omega
  rw [exchange_apply, unflatten_apply _ r b z hrb]
  exact Cert.MlpSpec.flat_apply _ _ _ _ _ r b z z hrb

/-! ## The run -/

/-- Every weakly fair execution of the idealized kernel program terminates with its result buffer at the perceptron
    of its arguments and its arguments unchanged. -/
theorem run : θ_run defs (onTc (τ := τ) (main (F := Ideal))) ⟨m, fun _ => 0, ρ⟩ (fun r => ∀ c : Dev nD,
      r.2.mem ((c.tc : Thread nD τ).loc main_v5) = Cert.MlpSpec.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Whole

end
-- ==== Proof.lean ====
/-
  The kernel and its reference are one two-layer perceptron.

  Kernel: the input [700, 128, 1024] is flattened to 89600 rows of 1024 features; a grid of 50 steps, 1792 rows each,
  computes per row  Σ_h max (Σ_d x[d] · W1[d, h] + b1[h]) 0 · W2[h, 0] + b2[0]  by two matrix products on the matrix
  unit (operands narrowed to a 16-bit format, accumulation in 32 bits); the [89600, 1] result is unflattened to
  [700, 128, 1] and its two leading axes exchanged.
  Reference: two contractions over the last axis of the unflattened [700, 128, ·] arrays, the biases broadcast, the
  rectifier as a maximum with zero, and the same exchange of axes.

  At the ideal values a change of float format is the identity, a matrix product into a zero accumulator and the
  host's contraction are both the plain finite sum over the contracted index, and the two zero constants are the
  real number 0. So both programs end with  out[b, r, 0] = perceptron of row (r, b)  (`MlpSpec.out`): the
  reference entry by entry (RefIsSpec), the kernel block by block — one grid step writes 1792 rows of one function
  of the arrays (KernelBlock, KernelArray), the blocks tile the rows, and the reshapes before and after the grid
  send row r · 128 + b to entry (r, b) and back (KernelWhole). No law of arithmetic beyond the definitions is needed,
  so the finiteness of the inputs is not used. The idealization rewrote nothing, so it has nothing to preserve.
  The three frames are the generated frame of each kernel program and the reference's run with its result dropped.
-/
import proofs.«181621_j30073361006607_1_alg».proof.Defs
import proofs.«181621_j30073361006607_1_alg».proof.Proof.Gen.Kernel
import proofs.«181621_j30073361006607_1_alg».proof.Proof.Gen.Kernel.Skeleton
import proofs.«181621_j30073361006607_1_alg».proof.Proof.Gen.Kernel.Launch
import proofs.«181621_j30073361006607_1_alg».proof.Proof.Gen.Kernel.Points
import proofs.«181621_j30073361006607_1_alg».proof.Proof.Gen.Kernel.Frame
import proofs.«181621_j30073361006607_1_alg».proof.Proof.Gen.KernelIdeal
import proofs.«181621_j30073361006607_1_alg».proof.Proof.Gen.KernelIdeal.Skeleton
import proofs.«181621_j30073361006607_1_alg».proof.Proof.Gen.KernelIdeal.Launch
import proofs.«181621_j30073361006607_1_alg».proof.Proof.Gen.KernelIdeal.Points
import proofs.«181621_j30073361006607_1_alg».proof.Proof.Gen.KernelIdeal.Frame
import proofs.«181621_j30073361006607_1_alg».proof.Proof.Gen.ReferenceIdeal
import proofs.«181621_j30073361006607_1_alg».proof.Proof.Gen.ReferenceIdeal.Run
import proofs.«181621_j30073361006607_1_alg».proof.Proof.Gen.ReferenceIdeal.Read
import proofs.«181621_j30073361006607_1_alg».proof.Proof.Gen.Pre_finite_inputs
import proofs.«181621_j30073361006607_1_alg».proof.Proof.RefIsSpec
import proofs.«181621_j30073361006607_1_alg».proof.Proof.KernelWhole
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both idealized programs end with the perceptron of the
    arguments in their result buffers: the kernel by its run (KernelWhole), the reference by its run read entry by
    entry (RefIsSpec), the arguments identified by the agreement. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefSpec.ref_is_spec,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
